-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v53)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v53) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024 : Shape := ⟨1, ![1024]⟩
abbrev S100000x512 : Shape := ⟨2, ![100000, 512]⟩
abbrev S1000x512 : Shape := ⟨2, ![1000, 512]⟩
abbrev S1x100000 : Shape := ⟨2, ![1, 100000]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S1000x512 : S_.BroadcastsInDim S1000x512 (![] : Fin 0 → Fin S1000x512.rank)
  reducesTo_S1000x512_S_d0_1 : S1000x512.ReducesTo [0, 1] S_
  bcast_S_S1x100000 : S_.BroadcastsInDim S1x100000 (![] : Fin 0 → Fin S1x100000.rank)
  reducesTo_S1x100000_S_d0_1 : S1x100000.ReducesTo [0, 1] S_

variable [Facts]

def fn_part1 {F : FTy → Type} [FloatOps F] (main_arg6 : FVec F S1x100000 .f32) (main_v13 : IVec S_ 1) (main_v16 : IVec S1000x512 1) : IVec S_ 1 :=
  let main_c_5 : IVec S_ 1 := constantI S_ 1 1#1
  let main_v17 : IVec S_ 1 := (fun x v => Host.reduce IntOp.andi x v reducesTo_S1000x512_S_d0_1 h_S_) main_v16 main_c_5
  let main_v18 : IVec S_ 1 := andi main_v13 main_v17
  let main_v19 : FVec F S1x100000 .f32 := Host.absf main_arg6
  let main_cst_6 : FVec F S_ .f32 := constant S_ .f32 0x7F800000#32
  let main_v20 : FVec F S1x100000 .f32 := broadcastInDim S1x100000 ![] bcast_S_S1x100000 main_cst_6
  let main_v21 : IVec S1x100000 1 := cmpf .olt main_v19 main_v20
  let main_c_7 : IVec S_ 1 := constantI S_ 1 1#1
  let main_v22 : IVec S_ 1 := (fun x v => Host.reduce IntOp.andi x v reducesTo_S1x100000_S_d0_1 h_S_) main_v21 main_c_7
  let main_v23 : IVec S_ 1 := andi main_v18 main_v22
  main_v23

def fn {F : FTy → Type} [FloatOps F] (main_arg0 : IVec S1024 32) (main_arg1 : IVec S1024 32) (main_arg2 : FVec F S100000x512 .f32) (main_arg3 : FVec F S100000x512 .f32) (main_arg4 : FVec F S1000x512 .f32) (main_arg5 : FVec F S1000x512 .f32) (main_arg6 : FVec F S1x100000 .f32) : IVec S_ 1 :=
  let main_v0 : FVec F S100000x512 .f32 := Host.absf main_arg2
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S100000x512 .f32 := Host.absf main_arg3
  let main_cst_0 : FVec F S_ .f32 := constant S_ .f32 0x7F800000#32
  let main_v5 : FVec F S100000x512 .f32 := broadcastInDim S100000x512 ![] bcast_S_S100000x512 main_cst_0
  let main_v6 : IVec S100000x512 1 := cmpf .olt main_v4 main_v5
  let main_c_1 : IVec S_ 1 := constantI S_ 1 1#1
  let main_v7 : IVec S_ 1 := (fun x v => Host.reduce IntOp.andi x v reducesTo_S100000x512_S_d0_1 h_S_) main_v6 main_c_1
  let main_v8 : IVec S_ 1 := andi main_v3 main_v7
  let main_v9 : FVec F S1000x512 .f32 := Host.absf main_arg4
  let main_cst_2 : FVec F S_ .f32 := constant S_ .f32 0x7F800000#32
  let main_v10 : FVec F S1000x512 .f32 := broadcastInDim S1000x512 ![] bcast_S_S1000x512 main_cst_2
  let main_v11 : IVec S1000x512 1 := cmpf .olt main_v9 main_v10
  let main_c_3 : IVec S_ 1 := constantI S_ 1 1#1
  let main_v12 : IVec S_ 1 := (fun x v => Host.reduce IntOp.andi x v reducesTo_S1000x512_S_d0_1 h_S_) main_v11 main_c_3
  let main_v13 : IVec S_ 1 := andi main_v8 main_v12
  let main_v14 : FVec F S1000x512 .f32 := Host.absf main_arg5
  let main_cst_4 : FVec F S_ .f32 := constant S_ .f32 0x7F800000#32
  let main_v15 : FVec F S1000x512 .f32 := broadcastInDim S1000x512 ![] bcast_S_S1000x512 main_cst_4
  let main_v16 : IVec S1000x512 1 := cmpf .olt main_v14 main_v15
  fn_part1 (F := F) main_arg6 main_v13 main_v16
-- ==== Kernel.lean ====
abbrev S1024 : Shape := ⟨1, ![1024]⟩
abbrev S100000x512 : Shape := ⟨2, ![100000, 512]⟩
abbrev S1000x512 : Shape := ⟨2, ![1000, 512]⟩
abbrev S1x100000 : Shape := ⟨2, ![1, 100000]⟩
abbrev S_ : Shape := ⟨0, ![]⟩
abbrev S1024x1 : Shape := ⟨2, ![1024, 1]⟩
abbrev S1024x512 : Shape := ⟨2, ![1024, 512]⟩
abbrev S100352x512 : Shape := ⟨2, ![100352, 512]⟩
abbrev S1x100352 : Shape := ⟨2, ![1, 100352]⟩
abbrev S1024x100352 : Shape := ⟨2, ![1024, 100352]⟩
abbrev S1x1024 : Shape := ⟨2, ![1, 1024]⟩
abbrev S1024x1024 : Shape := ⟨2, ![1024, 1024]⟩
abbrev S1024x100000 : Shape := ⟨2, ![1024, 100000]⟩

abbrev nBuf : Space → Nat
  | .hbm => 79
  | .vmem => 10
  | .smem => 0
  | _ => 0

abbrev bufTy : (tb : Table) → Fin (tcTables nBuf tb) → BufTy
  | .hbm, ⟨0, _⟩ => ⟨S1024, .i32⟩
  | .hbm, ⟨1, _⟩ => ⟨S1024, .i32⟩
  | .hbm, ⟨2, _⟩ => ⟨S100000x512, .f32⟩
  | .hbm, ⟨3, _⟩ => ⟨S100000x512, .f32⟩
  | .hbm, ⟨4, _⟩ => ⟨S1000x512, .f32⟩
  | .hbm, ⟨5, _⟩ => ⟨S1000x512, .f32⟩
  | .hbm, ⟨6, _⟩ => ⟨S1x100000, .f32⟩
  | .hbm, ⟨7, _⟩ => ⟨S_, .i32⟩
  | .hbm, ⟨8, _⟩ => ⟨S1024, .i32⟩
  | .hbm, ⟨9, _⟩ => ⟨S1024, .i1⟩
  | .hbm, ⟨10, _⟩ => ⟨S_, .i32⟩
  | .hbm, ⟨11, _⟩ => ⟨S1024, .i32⟩
  | .hbm, ⟨12, _⟩ => ⟨S1024, .i32⟩
  | .hbm, ⟨13, _⟩ => ⟨S1024, .i32⟩
  | .hbm, ⟨14, _⟩ => ⟨S_, .i32⟩
  | .hbm, ⟨15, _⟩ => ⟨S1024, .i32⟩
  | .hbm, ⟨16, _⟩ => ⟨S1024, .i1⟩
  | .hbm, ⟨17, _⟩ => ⟨S_, .i32⟩
  | .hbm, ⟨18, _⟩ => ⟨S1024, .i32⟩
  | .hbm, ⟨19, _⟩ => ⟨S1024, .i32⟩
  | .hbm, ⟨20, _⟩ => ⟨S1024, .i32⟩
  | .hbm, ⟨21, _⟩ => ⟨S1024x1, .i32⟩
  | .hbm, ⟨22, _⟩ => ⟨S1024x512, .f32⟩
  | .hbm, ⟨23, _⟩ => ⟨S_, .i32⟩
  | .hbm, ⟨24, _⟩ => ⟨S1024, .i32⟩
  | .hbm, ⟨25, _⟩ => ⟨S1024, .i1⟩
  | .hbm, ⟨26, _⟩ => ⟨S_, .i32⟩
  | .hbm, ⟨27, _⟩ => ⟨S1024, .i32⟩
  | .hbm, ⟨28, _⟩ => ⟨S1024, .i32⟩
  | .hbm, ⟨29, _⟩ => ⟨S1024, .i32⟩
  | .hbm, ⟨30, _⟩ => ⟨S1024x1, .i32⟩
  | .hbm, ⟨31, _⟩ => ⟨S1024x512, .f32⟩
  | .hbm, ⟨32, _⟩ => ⟨S_, .i32⟩
  | .hbm, ⟨33, _⟩ => ⟨S1024, .i32⟩
  | .hbm, ⟨34, _⟩ => ⟨S1024, .i1⟩
  | .hbm, ⟨35, _⟩ => ⟨S_, .i32⟩
  | .hbm, ⟨36, _⟩ => ⟨S1024, .i32⟩
  | .hbm, ⟨37, _⟩ => ⟨S1024, .i32⟩
  | .hbm, ⟨38, _⟩ => ⟨S1024, .i32⟩
  | .hbm, ⟨39, _⟩ => ⟨S1024x1, .i32⟩
  | .hbm, ⟨40, _⟩ => ⟨S1024x512, .f32⟩
  | .hbm, ⟨41, _⟩ => ⟨S_, .i32⟩
  | .hbm, ⟨42, _⟩ => ⟨S1024, .i32⟩
  | .hbm, ⟨43, _⟩ => ⟨S1024, .i1⟩
  | .hbm, ⟨44, _⟩ => ⟨S_, .i32⟩
  | .hbm, ⟨45, _⟩ => ⟨S1024, .i32⟩
  | .hbm, ⟨46, _⟩ => ⟨S1024, .i32⟩
  | .hbm, ⟨47, _⟩ => ⟨S1024, .i32⟩
  | .hbm, ⟨48, _⟩ => ⟨S1024x1, .i32⟩
  | .hbm, ⟨49, _⟩ => ⟨S1024x512, .f32⟩
  | .hbm, ⟨50, _⟩ => ⟨S1024x1, .i1⟩
  | .hbm, ⟨51, _⟩ => ⟨S1024x512, .f32⟩
  | .hbm, ⟨52, _⟩ => ⟨S1024x512, .f32⟩
  | .hbm, ⟨53, _⟩ => ⟨S1024x512, .f32⟩
  | .hbm, ⟨54, _⟩ => ⟨S1024x512, .f32⟩
  | .hbm, ⟨55, _⟩ => ⟨S1024x512, .i1⟩
  | .hbm, ⟨56, _⟩ => ⟨S1024x512, .f32⟩
  | .hbm, ⟨57, _⟩ => ⟨S1024x512, .f32⟩
  | .hbm, ⟨58, _⟩ => ⟨S1024x512, .f32⟩
  | .hbm, ⟨59, _⟩ => ⟨S1024x512, .f32⟩
  | .hbm, ⟨60, _⟩ => ⟨S1024x512, .f32⟩
  | .hbm, ⟨61, _⟩ => ⟨S1024x512, .f32⟩
  | .hbm, ⟨62, _⟩ => ⟨S1024x512, .f32⟩
  | .hbm, ⟨63, _⟩ => ⟨S1024x512, .f32⟩
  | .hbm, ⟨64, _⟩ => ⟨S1024x512, .i1⟩
  | .hbm, ⟨65, _⟩ => ⟨S1024x512, .f32⟩
  | .hbm, ⟨66, _⟩ => ⟨S1024x512, .bf16⟩
  | .hbm, ⟨67, _⟩ => ⟨S1024x512, .bf16⟩
  | .hbm, ⟨68, _⟩ => ⟨S_, .i32⟩
  | .hbm, ⟨69, _⟩ => ⟨S_, .f32⟩
  | .hbm, ⟨70, _⟩ => ⟨S100352x512, .f32⟩
  | .hbm, ⟨71, _⟩ => ⟨S_, .i32⟩
  | .hbm, ⟨72, _⟩ => ⟨S_, .f32⟩
  | .hbm, ⟨73, _⟩ => ⟨S100352x512, .f32⟩
  | .hbm, ⟨74, _⟩ => ⟨S_, .i32⟩
  | .hbm, ⟨75, _⟩ => ⟨S_, .f32⟩
  | .hbm, ⟨76, _⟩ => ⟨S1x100352, .f32⟩
  | .hbm, ⟨77, _⟩ => ⟨S1024x100352, .f32⟩
  | .hbm, ⟨78, _⟩ => ⟨S1024x100000, .f32⟩
  | .local _ .vmem, ⟨0, _⟩ => ⟨S1024x512, .bf16⟩
  | .local _ .vmem, ⟨1, _⟩ => ⟨S1024x512, .bf16⟩
  | .local _ .vmem, ⟨2, _⟩ => ⟨S1024x512, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S1x1024, .f32⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | _, _ => ⟨S1024, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c_1 : Ref sig .tc := ⟨.hbm, 14, rfl⟩
abbrev main_v5 : Ref sig .tc := ⟨.hbm, 15, rfl⟩
abbrev main_v6 : Ref sig .tc := ⟨.hbm, 16, rfl⟩
abbrev main_c_2 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c_3 : Ref sig .tc := ⟨.hbm, 23, rfl⟩
abbrev main_v12 : Ref sig .tc := ⟨.hbm, 24, rfl⟩
abbrev main_v13 : Ref sig .tc := ⟨.hbm, 25, rfl⟩
abbrev main_c_4 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c_5 : Ref sig .tc := ⟨.hbm, 32, rfl⟩
abbrev main_v19 : Ref sig .tc := ⟨.hbm, 33, rfl⟩
abbrev main_v20 : Ref sig .tc := ⟨.hbm, 34, rfl⟩
abbrev main_c_6 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_c_7 : Ref sig .tc := ⟨.hbm, 41, rfl⟩
abbrev main_v26 : Ref sig .tc := ⟨.hbm, 42, rfl⟩
abbrev main_v27 : Ref sig .tc := ⟨.hbm, 43, rfl⟩
abbrev main_c_8 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_call1_v0 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_call2_v0 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_c_9 : Ref sig .tc := ⟨.hbm, 68, rfl⟩
abbrev main_call3_v0 : Ref sig .tc := ⟨.hbm, 69, rfl⟩
abbrev main_v49 : Ref sig .tc := ⟨.hbm, 70, rfl⟩
abbrev main_c_10 : Ref sig .tc := ⟨.hbm, 71, rfl⟩
abbrev main_call4_v0 : Ref sig .tc := ⟨.hbm, 72, rfl⟩
abbrev main_v50 : Ref sig .tc := ⟨.hbm, 73, rfl⟩
abbrev main_c_11 : Ref sig .tc := ⟨.hbm, 74, rfl⟩
abbrev main_call5_v0 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![98], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1024x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x512_0_1 : S1024x1.BroadcastsInDim S1024x512 (![0, 1] : Fin 2 → Fin S1024x512.rank)
  bitsLt_bf16_f32 : FTy.bits .bf16 < FTy.bits .f32
  pads_S100000x512_S100352x512_03520_000 : S100000x512.Pads (![0, 0] : Fin 2 → Nat) ![352, 0] ![0, 0] S100352x512
  h_S_ : 0 < S_.numel
  pads_S1x100000_S1x100352_000_03520 : S1x100000.Pads (![0, 0] : Fin 2 → Nat) ![0, 352] ![0, 0] S1x100352
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  slices_S1024x100352_S1024x100000_0_0 : S1024x100352.Slices ![0, 0] S1024x100000
  gather_S100000x512_S1024x1_S1024x512_1_0_n_n_0_1_1512_wf : GatherDims.WF S100000x512 S1024x1 S1024x512 [1] [0] [] [0] [] 1 ![1, 512]
  gather_S1000x512_S1024x1_S1024x512_1_0_n_n_0_1_1512_wf : GatherDims.WF S1000x512 S1024x1 S1024x512 [1] [0] [] [0] [] 1 ![1, 512]
  dot_S1024x512_S1024x512_S1024x1024_1_1_0_0_n_n_wf : DotDims.WF S1024x512 S1024x512 S1024x1024 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S1024x512.size a
  hwx0_0 : ∀ i : grid0.Coords, EltTy.bits .bf16 = 32 ∨ (Rect.block (s := S1024x512) S1024x512.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S1024x512.size a
  hwx0_1 : ∀ i : grid0.Coords, EltTy.bits .bf16 = 32 ∨ (Rect.block (s := S1024x512) S1024x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S100352x512.size a
  hwx0_2 : ∀ i : grid0.Coords, EltTy.bits .f32 = 32 ∨ (Rect.block (s := S100352x512) S1024x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S100352x512.size a
  hwx0_3 : ∀ i : grid0.Coords, EltTy.bits .f32 = 32 ∨ (Rect.block (s := S100352x512) S1024x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x100352.size a
  hwx0_4 : ∀ i : grid0.Coords, EltTy.bits .f32 = 32 ∨ (Rect.block (s := S1x100352) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S1024x100352.size a
  hwx0_5 : ∀ i : grid0.Coords, EltTy.bits .f32 = 32 ∨ (Rect.block (s := S1024x100352) S1024x1024.size (cc0_transform_5 i) (hinb0_5 i)).WholeWords (EltTy.packing .f32)

variable [Facts₀]

def gather_S100000x512_S1024x1_S1024x512_1_0_n_n_0_1_1512 : GatherDims S100000x512 S1024x1 S1024x512 where
  offsetDims := [1]
  collapsedSliceDims := [0]
  operandBatchingDims := []
  startIndicesBatchingDims := []
  startIndexMap := [0]
  indexVectorDim := 1
  sliceSizes := ![1, 512]
  wf := gather_S100000x512_S1024x1_S1024x512_1_0_n_n_0_1_1512_wf
def gather_S1000x512_S1024x1_S1024x512_1_0_n_n_0_1_1512 : GatherDims S1000x512 S1024x1 S1024x512 where
  offsetDims := [1]
  collapsedSliceDims := [0]
  operandBatchingDims := []
  startIndicesBatchingDims := []
  startIndexMap := [0]
  indexVectorDim := 1
  sliceSizes := ![1, 512]
  wf := gather_S1000x512_S1024x1_S1024x512_1_0_n_n_0_1_1512_wf
def dot_S1024x512_S1024x512_S1024x1024_1_1_0_0_n_n : DotDims S1024x512 S1024x512 S1024x1024 where
  lhsContracting := [1]
  rhsContracting := [1]
  lhsNonContracting := [0]
  rhsNonContracting := [0]
  lhsBatch := []
  rhsBatch := []
  wf := dot_S1024x512_S1024x512_S1024x1024_1_1_0_0_n_n_wf

abbrev win0_0 : Pipeline.Window sig grid0 :=
  Pipeline.Window.ofSpec (Memref.whole main_v47) S1024x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v48) S1024x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v49) S1024x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v50) S1024x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v51) S1x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v52) S1024x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S1024 : Shape := ⟨1, ![1024]⟩
abbrev S100000x512 : Shape := ⟨2, ![100000, 512]⟩
abbrev S1000x512 : Shape := ⟨2, ![1000, 512]⟩
abbrev S1x100000 : Shape := ⟨2, ![1, 100000]⟩
abbrev S_ : Shape := ⟨0, ![]⟩
abbrev S1024x1 : Shape := ⟨2, ![1024, 1]⟩
abbrev S1024x512 : Shape := ⟨2, ![1024, 512]⟩
abbrev S512x100000 : Shape := ⟨2, ![512, 100000]⟩
abbrev S1024x100000 : Shape := ⟨2, ![1024, 100000]⟩

abbrev nBuf : Space → Nat
  | .hbm => 73
  | .vmem => 0
  | .smem => 0
  | _ => 0

abbrev bufTy : (tb : Table) → Fin (tcTables nBuf tb) → BufTy
  | .hbm, ⟨0, _⟩ => ⟨S1024, .i32⟩
  | .hbm, ⟨1, _⟩ => ⟨S1024, .i32⟩
  | .hbm, ⟨2, _⟩ => ⟨S100000x512, .f32⟩
  | .hbm, ⟨3, _⟩ => ⟨S100000x512, .f32⟩
  | .hbm, ⟨4, _⟩ => ⟨S1000x512, .f32⟩
  | .hbm, ⟨5, _⟩ => ⟨S1000x512, .f32⟩
  | .hbm, ⟨6, _⟩ => ⟨S1x100000, .f32⟩
  | .hbm, ⟨7, _⟩ => ⟨S_, .i32⟩
  | .hbm, ⟨8, _⟩ => ⟨S1024, .i32⟩
  | .hbm, ⟨9, _⟩ => ⟨S1024, .i1⟩
  | .hbm, ⟨10, _⟩ => ⟨S_, .i32⟩
  | .hbm, ⟨11, _⟩ => ⟨S1024, .i32⟩
  | .hbm, ⟨12, _⟩ => ⟨S1024, .i32⟩
  | .hbm, ⟨13, _⟩ => ⟨S1024, .i32⟩
  | .hbm, ⟨14, _⟩ => ⟨S_, .i32⟩
  | .hbm, ⟨15, _⟩ => ⟨S1024, .i32⟩
  | .hbm, ⟨16, _⟩ => ⟨S1024, .i1⟩
  | .hbm, ⟨17, _⟩ => ⟨S_, .i32⟩
  | .hbm, ⟨18, _⟩ => ⟨S1024, .i32⟩
  | .hbm, ⟨19, _⟩ => ⟨S1024, .i32⟩
  | .hbm, ⟨20, _⟩ => ⟨S1024, .i32⟩
  | .hbm, ⟨21, _⟩ => ⟨S1024x1, .i32⟩
  | .hbm, ⟨22, _⟩ => ⟨S1024x512, .f32⟩
  | .hbm, ⟨23, _⟩ => ⟨S_, .i32⟩
  | .hbm, ⟨24, _⟩ => ⟨S1024, .i32⟩
  | .hbm, ⟨25, _⟩ => ⟨S1024, .i1⟩
  | .hbm, ⟨26, _⟩ => ⟨S_, .i32⟩
  | .hbm, ⟨27, _⟩ => ⟨S1024, .i32⟩
  | .hbm, ⟨28, _⟩ => ⟨S1024, .i32⟩
  | .hbm, ⟨29, _⟩ => ⟨S1024, .i32⟩
  | .hbm, ⟨30, _⟩ => ⟨S1024x1, .i32⟩
  | .hbm, ⟨31, _⟩ => ⟨S1024x512, .f32⟩
  | .hbm, ⟨32, _⟩ => ⟨S_, .i32⟩
  | .hbm, ⟨33, _⟩ => ⟨S1024, .i32⟩
  | .hbm, ⟨34, _⟩ => ⟨S1024, .i1⟩
  | .hbm, ⟨35, _⟩ => ⟨S_, .i32⟩
  | .hbm, ⟨36, _⟩ => ⟨S1024, .i32⟩
  | .hbm, ⟨37, _⟩ => ⟨S1024, .i32⟩
  | .hbm, ⟨38, _⟩ => ⟨S1024, .i32⟩
  | .hbm, ⟨39, _⟩ => ⟨S1024x1, .i32⟩
  | .hbm, ⟨40, _⟩ => ⟨S1024x512, .f32⟩
  | .hbm, ⟨41, _⟩ => ⟨S_, .i32⟩
  | .hbm, ⟨42, _⟩ => ⟨S1024, .i32⟩
  | .hbm, ⟨43, _⟩ => ⟨S1024, .i1⟩
  | .hbm, ⟨44, _⟩ => ⟨S_, .i32⟩
  | .hbm, ⟨45, _⟩ => ⟨S1024, .i32⟩
  | .hbm, ⟨46, _⟩ => ⟨S1024, .i32⟩
  | .hbm, ⟨47, _⟩ => ⟨S1024, .i32⟩
  | .hbm, ⟨48, _⟩ => ⟨S1024x1, .i32⟩
  | .hbm, ⟨49, _⟩ => ⟨S1024x512, .f32⟩
  | .hbm, ⟨50, _⟩ => ⟨S1024x1, .i1⟩
  | .hbm, ⟨51, _⟩ => ⟨S1024x512, .f32⟩
  | .hbm, ⟨52, _⟩ => ⟨S1024x512, .f32⟩
  | .hbm, ⟨53, _⟩ => ⟨S1024x512, .f32⟩
  | .hbm, ⟨54, _⟩ => ⟨S1024x512, .f32⟩
  | .hbm, ⟨55, _⟩ => ⟨S1024x512, .i1⟩
  | .hbm, ⟨56, _⟩ => ⟨S1024x512, .f32⟩
  | .hbm, ⟨57, _⟩ => ⟨S1024x512, .f32⟩
  | .hbm, ⟨58, _⟩ => ⟨S1024x512, .f32⟩
  | .hbm, ⟨59, _⟩ => ⟨S1024x512, .f32⟩
  | .hbm, ⟨60, _⟩ => ⟨S1024x512, .f32⟩
  | .hbm, ⟨61, _⟩ => ⟨S1024x512, .f32⟩
  | .hbm, ⟨62, _⟩ => ⟨S1024x512, .f32⟩
  | .hbm, ⟨63, _⟩ => ⟨S1024x512, .f32⟩
  | .hbm, ⟨64, _⟩ => ⟨S1024x512, .i1⟩
  | .hbm, ⟨65, _⟩ => ⟨S1024x512, .f32⟩
  | .hbm, ⟨66, _⟩ => ⟨S512x100000, .f32⟩
  | .hbm, ⟨67, _⟩ => ⟨S1024x100000, .f32⟩
  | .hbm, ⟨68, _⟩ => ⟨S512x100000, .f32⟩
  | .hbm, ⟨69, _⟩ => ⟨S1024x100000, .f32⟩
  | .hbm, ⟨70, _⟩ => ⟨S1024x100000, .f32⟩
  | .hbm, ⟨71, _⟩ => ⟨S1024x100000, .f32⟩
  | .hbm, ⟨72, _⟩ => ⟨S1024x100000, .f32⟩
  | _, _ => ⟨S1024, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c_1 : Ref sig .tc := ⟨.hbm, 14, rfl⟩
abbrev main_v5 : Ref sig .tc := ⟨.hbm, 15, rfl⟩
abbrev main_v6 : Ref sig .tc := ⟨.hbm, 16, rfl⟩
abbrev main_c_2 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c_3 : Ref sig .tc := ⟨.hbm, 23, rfl⟩
abbrev main_v12 : Ref sig .tc := ⟨.hbm, 24, rfl⟩
abbrev main_v13 : Ref sig .tc := ⟨.hbm, 25, rfl⟩
abbrev main_c_4 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c_5 : Ref sig .tc := ⟨.hbm, 32, rfl⟩
abbrev main_v19 : Ref sig .tc := ⟨.hbm, 33, rfl⟩
abbrev main_v20 : Ref sig .tc := ⟨.hbm, 34, rfl⟩
abbrev main_c_6 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_c_7 : Ref sig .tc := ⟨.hbm, 41, rfl⟩
abbrev main_v26 : Ref sig .tc := ⟨.hbm, 42, rfl⟩
abbrev main_v27 : Ref sig .tc := ⟨.hbm, 43, rfl⟩
abbrev main_c_8 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_call1_v0 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_call2_v0 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩

abbrev nD : Nat := 1
abbrev τ : Topo := Topo.v7x

variable {F : FTy → Type} [FloatOps F]

class Facts₀ : Prop where
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x512_0_1 : S1024x1.BroadcastsInDim S1024x512 (![0, 1] : Fin 2 → Fin S1024x512.rank)
  transposes_S100000x512_S512x100000_1_0 : S100000x512.Transposes [1, 0] S512x100000
  bcast_S1x100000_S1024x100000_0_1 : S1x100000.BroadcastsInDim S1024x100000 (![0, 1] : Fin 2 → Fin S1024x100000.rank)
  gather_S100000x512_S1024x1_S1024x512_1_0_n_n_0_1_1512_wf : GatherDims.WF S100000x512 S1024x1 S1024x512 [1] [0] [] [0] [] 1 ![1, 512]
  gather_S1000x512_S1024x1_S1024x512_1_0_n_n_0_1_1512_wf : GatherDims.WF S1000x512 S1024x1 S1024x512 [1] [0] [] [0] [] 1 ![1, 512]
  dot_S1024x512_S512x100000_S1024x100000_1_0_0_1_n_n_wf : DotDims.WF S1024x512 S512x100000 S1024x100000 [1] [0] [0] [1] [] []

variable [Facts₀]

def gather_S100000x512_S1024x1_S1024x512_1_0_n_n_0_1_1512 : GatherDims S100000x512 S1024x1 S1024x512 where
  offsetDims := [1]
  collapsedSliceDims := [0]
  operandBatchingDims := []
  startIndicesBatchingDims := []
  startIndexMap := [0]
  indexVectorDim := 1
  sliceSizes := ![1, 512]
  wf := gather_S100000x512_S1024x1_S1024x512_1_0_n_n_0_1_1512_wf
def gather_S1000x512_S1024x1_S1024x512_1_0_n_n_0_1_1512 : GatherDims S1000x512 S1024x1 S1024x512 where
  offsetDims := [1]
  collapsedSliceDims := [0]
  operandBatchingDims := []
  startIndicesBatchingDims := []
  startIndexMap := [0]
  indexVectorDim := 1
  sliceSizes := ![1, 512]
  wf := gather_S1000x512_S1024x1_S1024x512_1_0_n_n_0_1_1512_wf
def dot_S1024x512_S512x100000_S1024x100000_1_0_0_1_n_n : DotDims S1024x512 S512x100000 S1024x100000 where
  lhsContracting := [1]
  rhsContracting := [0]
  lhsNonContracting := [0]
  rhsNonContracting := [1]
  lhsBatch := []
  rhsBatch := []
  wf := dot_S1024x512_S512x100000_S1024x100000_1_0_0_1_n_n_wf

class Facts : Prop extends Facts₀ where

variable [Facts]
-- ==== Proof.Spec.lean ====
/-
  The score both programs compute.

  For a batch of 1024 queries, each with two feature rows t1[b, ·] and t2[b, ·] of 512 entries (the two parts of a
  complex product of a head row and a relation row), and a table of E entities with rows A[e, ·] and B[e, ·]
  (imaginary and real parts) and a per-entity offset mk[0, e], the score of query b against entity e is

      (∑ k, t1[b, k] · A[e, k]) + (∑ k, t2[b, k] · B[e, k]) + mk[0, e].

  The sums are over the extended reals; nothing here reorders or distributes, so no finiteness is used. A table that
  is another table followed by extra rows has the same scores on the common entities (`scoreAt_of_rows`).
-/
import Idealize.ShloMosaic.PureOps.Ideal
import Idealize.ShloMosaic.Lib.ValueIdx

noncomputable section

namespace Cert.Score

open Idealize.ShloMosaic Idealize.ShloMosaic.ValueIdx

/-- The score of query `p` against entity `q`. -/
def scoreAt {E : ℕ} (t1 t2 : (⟨2, ![1024, 512]⟩ : Shape).Idx → EReal) (A B : (⟨2, ![E, 512]⟩ : Shape).Idx → EReal)
    (mk : (⟨2, ![1, E]⟩ : Shape).Idx → EReal) (p : Fin 1024) (q : Fin E) : EReal :=
  (∑ k : Fin 512, t1 (ix2 p k) * A (ix2 q k)) + (∑ k : Fin 512, t2 (ix2 p k) * B (ix2 q k)) + mk (ix2 (0 : Fin 1) q)

/-- All scores, as one array of 1024 rows and E columns. -/
def score {E : ℕ} (t1 t2 : (⟨2, ![1024, 512]⟩ : Shape).Idx → EReal) (A B : (⟨2, ![E, 512]⟩ : Shape).Idx → EReal)
    (mk : (⟨2, ![1, E]⟩ : Shape).Idx → EReal) : (⟨2, ![1024, E]⟩ : Shape).Idx → EReal :=
  fun i => scoreAt t1 t2 A B mk (i 0) (i 1)

theorem score_apply {E : ℕ} (t1 t2 : (⟨2, ![1024, 512]⟩ : Shape).Idx → EReal) (A B : (⟨2, ![E, 512]⟩ : Shape).Idx → EReal)
    (mk : (⟨2, ![1, E]⟩ : Shape).Idx → EReal) (p : Fin 1024) (q : Fin E) :
    score t1 t2 A B mk (ix2 p q) = scoreAt t1 t2 A B mk p q := rfl

/-- If entity `q'` of a longer table has the rows and the offset of entity `q` of a shorter one, the scores against
    them agree. -/
theorem scoreAt_of_rows {E E' : ℕ} (t1 t2 : (⟨2, ![1024, 512]⟩ : Shape).Idx → EReal)
    (A B : (⟨2, ![E, 512]⟩ : Shape).Idx → EReal) (mk : (⟨2, ![1, E]⟩ : Shape).Idx → EReal)
    (A' B' : (⟨2, ![E', 512]⟩ : Shape).Idx → EReal) (mk' : (⟨2, ![1, E']⟩ : Shape).Idx → EReal)
    (p : Fin 1024) (q : Fin E) (q' : Fin E')
    (hA : ∀ k : Fin 512, A' (ix2 q' k) = A (ix2 q k)) (hB : ∀ k : Fin 512, B' (ix2 q' k) = B (ix2 q k))
    (hm : mk' (ix2 (0 : Fin 1) q') = mk (ix2 (0 : Fin 1) q)) :
    scoreAt t1 t2 A' B' mk' p q' = scoreAt t1 t2 A B mk p q := by
  unfold scoreAt
  rw [hm]
  simp only [hA, hB]

end Cert.Score

end
-- ==== Proof.RefValue.lean ====
/-
  The reference's result is the score.

  The reference forms the two feature arrays t1, t2 from the inputs, multiplies each with the transposed entity table
  (a general dot over the 512 features), adds the two products and adds the offsets row broadcast to all 1024 queries.
  Read at (p, q) that is the score of query p against entity q, with t1 and t2 the reference's own feature arrays.
-/
import proofs.«154426_j72576357368236_1_alg».proof.Proof.Gen.ReferenceIdeal.Read
import proofs.«154426_j72576357368236_1_alg».proof.Proof.Spec

noncomputable section

namespace Cert.ReferenceIdeal.RefValue

open Cert.ReferenceIdeal Cert.ReferenceIdeal.Gen Cert.ReferenceIdeal.Read Idealize.ShloMosaic Idealize.ShloMosaic.ValueIdx

/-- The reference's last stage, as a function of the seven inputs, is the score over its two feature arrays. -/
theorem result_eq_score (x0 x1 : (⟨S1024, .i32⟩ : BufTy).Contents (Elt Ideal))
    (x2 x3 : (⟨S100000x512, .f32⟩ : BufTy).Contents (Elt Ideal)) (x4 x5 : (⟨S1000x512, .f32⟩ : BufTy).Contents (Elt Ideal))
    (x6 : (⟨S1x100000, .f32⟩ : BufTy).Contents (Elt Ideal)) :
    val_main_v53 (F := Ideal) x0 x1 x2 x3 x4 x5 x6
      = Cert.Score.score (val_main_v39 (F := Ideal) x0 x1 x2 x3 x4 x5) (val_main_v46 (F := Ideal) x0 x1 x2 x3 x4 x5) x2 x3 x6 := by
  funext i
  obtain ⟨p, q, rfl⟩ : ∃ (p : Fin 1024) (q : Fin 100000), i = ix2 p q := ⟨i 0, i 1, eq_ix2 i⟩
  rw [val_main_v53_apply, val_main_v51_apply, val_main_v48_apply, val_main_v50_apply, val_main_v52_apply]
  simp only [val_main_v47_apply, val_main_v49_apply]
  have l1 : ∀ k : Fin 512, lidx_main_v48 (ix2 p q) k = ix2 p k := fun k => funext fun a => by
    match a with | ⟨0, _⟩ => rfl | ⟨1, _⟩ => rfl
  have r1 : ∀ k : Fin 512, idx_main_v47 (ridx_main_v48 (ix2 p q) k) = ix2 q k := fun k => funext fun a => by
    match a with | ⟨0, _⟩ => rfl | ⟨1, _⟩ => rfl
  have l2 : ∀ k : Fin 512, lidx_main_v50 (ix2 p q) k = ix2 p k := fun k => funext fun a => by
    match a with | ⟨0, _⟩ => rfl | ⟨1, _⟩ => rfl
  have r2 : ∀ k : Fin 512, idx_main_v49 (ridx_main_v50 (ix2 p q) k) = ix2 q k := fun k => funext fun a => by
    match a with | ⟨0, _⟩ => rfl | ⟨1, _⟩ => rfl
  have o1 : idx_main_v52 (ix2 p q) = ix2 (0 : Fin 1) q := funext fun a => by
    match a with | ⟨0, _⟩ => rfl | ⟨1, _⟩ => rfl
  simp only [l1, r1, l2, r2, o1]
  rfl

end Cert.ReferenceIdeal.RefValue

end
-- ==== Proof.LibDenseNT.lean ====
/-
  A matrix product whose right operand is stored one row per output column, read at an entry.

  For dimension numbers that contract axis 1 of the left operand with axis 1 of the right operand and have no batch
  axis, entry (p, q) of an [M × K] by [N × K] product is the sum over k of left (p, k) times right (q, k): the right
  operand's row is the result's column. Stated for the vector unit's product into a zero accumulator. The hypotheses
  are the printed dimension numbers, each closed by `rfl` at a use.
-/
import Idealize.ShloMosaic.PureOps.Ideal
import Idealize.ShloMosaic.PureOps.Ideal.Laws
import Idealize.ShloMosaic.Lib.ValueIdx

noncomputable section

namespace Cert.LibDenseNT

open Idealize.ShloMosaic Idealize.ShloMosaic.ValueIdx

variable {M K N : ℕ} (d : DotDims ⟨2, ![M, K]⟩ ⟨2, ![N, K]⟩ ⟨2, ![M, N]⟩)

/-- Two coordinates of one index at provably equal positions have one value. -/
private theorem coord_val_congr {s : Shape} (j : s.Idx) (p q : ℕ) (hp : p < s.rank) (hq : q < s.rank) (h : p = q) :
    (j ⟨p, hp⟩).val = (j ⟨q, hq⟩).val := by subst h; rfl

/-- The left operand's row is the result's row. -/
theorem lhs_row (hln : d.lhsNonContracting = [0]) (hlb : d.lhsBatch = [])
    (j : (⟨2, ![M, N]⟩ : Shape).Idx) (k : d.contr.Idx) : (d.lhsIdx j k 0).val = (j 0).val := by
  have hb : (0 : Fin 2) ∉ d.lhsBatch := by rw [hlb]; exact List.not_mem_nil
  have hn : (0 : Fin 2) ∈ d.lhsNonContracting := by rw [hln]; exact List.mem_singleton.mpr rfl
  unfold DotDims.lhsIdx
  rw [dif_neg hb, dif_pos hn]
  simp only [Fin.val_cast]
  exact coord_val_congr j _ _ _ _ (by simp [hlb, hln])

/-- The left operand's column is the contraction index. -/
theorem lhs_col (hlc : d.lhsContracting = [1]) (j : (⟨2, ![M, N]⟩ : Shape).Idx) (k : d.contr.Idx) :
    (d.lhsIdx j k 1).val = (k ⟨0, by rw [d.rank_contr, hlc]; exact Nat.one_pos⟩).val :=
  d.lhsIdx_val_of_single hlc j k

/-- The right operand's row is the result's column. -/
theorem rhs_row (hln : d.lhsNonContracting = [0]) (hrn : d.rhsNonContracting = [0]) (hlb : d.lhsBatch = []) (hrb : d.rhsBatch = [])
    (j : (⟨2, ![M, N]⟩ : Shape).Idx) (k : d.contr.Idx) : (d.rhsIdx j k 0).val = (j 1).val := by
  have hb : (0 : Fin 2) ∉ d.rhsBatch := by rw [hrb]; exact List.not_mem_nil
  have hn : (0 : Fin 2) ∈ d.rhsNonContracting := by rw [hrn]; exact List.mem_singleton.mpr rfl
  unfold DotDims.rhsIdx
  rw [dif_neg hb, dif_pos hn]
  simp only [Fin.val_cast]
  exact coord_val_congr j _ _ _ _ (by simp [hlb, hln, hrn])

/-- The right operand's column is the contraction index. -/
theorem rhs_col (hrc : d.rhsContracting = [1]) (j : (⟨2, ![M, N]⟩ : Shape).Idx) (k : d.contr.Idx) :
    (d.rhsIdx j k 1).val = (k ⟨0, by rw [d.rank_contr, ← d.length_contracting, hrc]; exact Nat.one_pos⟩).val :=
  d.rhsIdx_val_of_single hrc j k

/-- The contraction shape has one axis, of extent K. -/
theorem contr_rank (hlc : d.lhsContracting = [1]) : d.contr.rank = 1 := by rw [d.rank_contr, hlc]; rfl

theorem contr_size (hlc : d.lhsContracting = [1]) :
    d.contr.size ⟨0, by rw [contr_rank d hlc]; exact Nat.one_pos⟩ = K := by
  have h := d.size_contr 0 (by rw [hlc]; exact Nat.one_pos)
  rw [h]
  simp [hlc]

/-- The sum over the contraction index is the sum over k of left (p, k) · right (q, k). -/
theorem sum_contr (hlc : d.lhsContracting = [1]) (hrc : d.rhsContracting = [1]) (hln : d.lhsNonContracting = [0])
    (hrn : d.rhsNonContracting = [0]) (hlb : d.lhsBatch = []) (hrb : d.rhsBatch = [])
    (x : (⟨2, ![M, K]⟩ : Shape).Idx → EReal) (w : (⟨2, ![N, K]⟩ : Shape).Idx → EReal) (p : Fin M) (q : Fin N) :
    ∑ k : d.contr.Idx, x (d.lhsIdx (ix2 p q) k) * w (d.rhsIdx (ix2 p q) k) = ∑ kk : Fin K, x (ix2 p kk) * w (ix2 q kk) := by
  rw [← Equiv.sum_comp (contrEquiv1 d K (contr_rank d hlc) (contr_size d hlc)).symm]
  refine Finset.sum_congr rfl fun kk _ => ?_
  have hk := contrEquiv1_symm_val d K (contr_rank d hlc) (contr_size d hlc) kk
  have el : d.lhsIdx (ix2 p q) ((contrEquiv1 d K (contr_rank d hlc) (contr_size d hlc)).symm kk) = ix2 p kk := by
    funext a; apply Fin.ext
    match a with
    | ⟨0, _⟩ => exact lhs_row d hln hlb _ _
    | ⟨1, _⟩ => exact (lhs_col d hlc _ _).trans hk
  have er : d.rhsIdx (ix2 p q) ((contrEquiv1 d K (contr_rank d hlc) (contr_size d hlc)).symm kk) = ix2 q kk := by
    funext a; apply Fin.ext
    match a with
    | ⟨0, _⟩ => exact rhs_row d hln hrn hlb hrb _ _
    | ⟨1, _⟩ => exact (rhs_col d hrc _ _).trans hk
  rw [el, er]

/-- The vector unit's product into a zero accumulator, read at (p, q). -/
theorem matmul_zero_apply {φ₁ φ₂ : FTy} (prec : Option ContractPrecision)
    (hlc : d.lhsContracting = [1]) (hrc : d.rhsContracting = [1]) (hln : d.lhsNonContracting = [0])
    (hrn : d.rhsNonContracting = [0]) (hlb : d.lhsBatch = []) (hrb : d.rhsBatch = [])
    (x : FVec Ideal ⟨2, ![M, K]⟩ φ₁) (w : FVec Ideal ⟨2, ![N, K]⟩ φ₂) (p : Fin M) (q : Fin N) :
    FloatOps.matmul d prec x w (constant ⟨2, ![M, N]⟩ .f32 0x00000000#32) (ix2 p q) = ∑ kk : Fin K, x (ix2 p kk) * w (ix2 q kk) := by
  rw [Ideal.matmul_constant_zero_apply]
  exact sum_contr d hlc hrc hln hrn hlb hrb x w p q

end Cert.LibDenseNT

end
-- ==== Proof.Payload.lean ====
/-
  The kernel body's stored value at an entry.

  At a grid point the body holds the two query blocks x0, x1 (1024 × 512), a block of 1024 entity rows of each table
  x2, x3 (1024 × 512) and the block's offsets x4 (1 × 1024). It multiplies each query block with the transposed entity
  block on the matrix unit into a zero accumulator, adds the two products and adds the offsets broadcast down the rows.
  Read at (p, q), with the format changes the identity on extended reals, that is

      (∑ k, x0[p, k] · x2[q, k]) + (∑ k, x1[p, k] · x3[q, k]) + x4[0, q].
-/
import proofs.«154426_j72576357368236_1_alg».proof.Proof.Gen.KernelIdeal.Skeleton
import proofs.«154426_j72576357368236_1_alg».proof.Proof.LibDenseNT
import Idealize.ShloMosaic.Lib.Pipeline.Value
import Idealize.ShloMosaic.Lib.ValueIdx

noncomputable section

namespace Cert.KernelIdeal.Body

open Cert.KernelIdeal Cert.KernelIdeal.Gen Idealize.ShloMosaic Idealize.ShloMosaic.ValueIdx

/-- The offsets row broadcast down the rows reads the offset of the column. -/
theorem offsets_apply (x : Vec Ideal S1x1024 .f32) (h : S1x1024.Broadcasts S1024x1024) (p q : Fin 1024) :
    broadcastTo S1024x1024 x h (ix2 p q) = x (ix2 (0 : Fin 1) q) :=
  broadcastTo_apply x h (ix2 p q) (ix2 (0 : Fin 1) q) fun a => by
    match a with
    | ⟨0, _⟩ => show (0 : ℕ) = if (1 : ℕ) = 1 then 0 else _; rw [if_pos rfl]
    | ⟨1, _⟩ => show q.val = if (1024 : ℕ) = 1 then 0 else q.val; rw [if_neg (by decide)]

/-- The body's stored value at row `p`, column `q` of the block. -/
theorem pay_apply (x0 x1 : Vec Ideal S1024x512 .bf16) (x2 x3 : Vec Ideal S1024x512 .f32) (x4 : Vec Ideal S1x1024 .f32)
    (p q : Fin 1024) :
    k0_pay1 (F := Ideal) x0 x1 x2 x3 x4 (ix2 p q)
      = (∑ k : Fin 512, x0 (ix2 p k) * x2 (ix2 q k)) + (∑ k : Fin 512, x1 (ix2 p k) * x3 (ix2 q k)) + x4 (ix2 (0 : Fin 1) q) := by
  unfold k0_pay1
  simp only [shapeCast_self]
  rw [addf_apply, addf_apply, offsets_apply]
  have e1 := Cert.LibDenseNT.matmul_zero_apply (φ₁ := .bf16) (φ₂ := .bf16) dot_S1024x512_S1024x512_S1024x1024_1_1_0_0_n_n none rfl rfl rfl rfl rfl rfl
    x0 (truncf .bf16 x2 bitsLt_bf16_f32) p q
  have e2 := Cert.LibDenseNT.matmul_zero_apply (φ₁ := .bf16) (φ₂ := .bf16) dot_S1024x512_S1024x512_S1024x1024_1_1_0_0_n_n none rfl rfl rfl rfl rfl rfl
    x1 (truncf .bf16 x3 bitsLt_bf16_f32) p q
  refine congrArg₂ (· + ·) (congrArg₂ (· + ·) (e1.trans ?_) (e2.trans ?_)) rfl <;> rfl

end Cert.KernelIdeal.Body

end
-- ==== Proof.HostArrays.lean ====
/-
  The arrays the kernel region finds, as functions of the inputs.

  Before the region the host builds the two query feature arrays (the same operations, in the same order, as the
  reference's, then a change of float format that is the identity on extended reals) and extends each entity table by
  352 rows, and the offsets row by 352 columns, of the value the integer 0 converts to. On the first 100000 entities the
  extended tables and offsets are the inputs.
-/
import proofs.«154426_j72576357368236_1_alg».proof.Proof.Gen.KernelIdeal.Frame
import proofs.«154426_j72576357368236_1_alg».proof.Proof.Gen.ReferenceIdeal.Read
import Idealize.ShloMosaic.Lib.StableHlo.Run
import Idealize.ShloMosaic.Lib.KernelVsHost
import Idealize.ShloMosaic.Lib.ValueIdx

set_option maxRecDepth 16384

noncomputable section

namespace Cert.KernelIdeal.HostArrays

open Cert.KernelIdeal Cert.KernelIdeal.Gen Idealize.ShloMosaic Idealize.ShloMosaic.TcCoe Idealize.ShloMosaic.ValueIdx
open Idealize.SL.Sem Idealize.ShloMosaic.StableHlo

variable (m : (ℓ : Loc nD τ sig) → Buf (Elt Ideal) ℓ)

/-- The seven inputs on core `c`, as launched. -/
abbrev in0 (c : Dev nD) : S1024.Idx → BitVec 32 := m ((c : Thread nD τ).loc main_arg0)
abbrev in1 (c : Dev nD) : S1024.Idx → BitVec 32 := m ((c : Thread nD τ).loc main_arg1)
abbrev in2 (c : Dev nD) : S100000x512.Idx → EReal := m ((c : Thread nD τ).loc main_arg2)
abbrev in3 (c : Dev nD) : S100000x512.Idx → EReal := m ((c : Thread nD τ).loc main_arg3)
abbrev in4 (c : Dev nD) : S1000x512.Idx → EReal := m ((c : Thread nD τ).loc main_arg4)
abbrev in5 (c : Dev nD) : S1000x512.Idx → EReal := m ((c : Thread nD τ).loc main_arg5)
abbrev in6 (c : Dev nD) : S1x100000.Idx → EReal := m ((c : Thread nD τ).loc main_arg6)

/-- The arrays the five input windows stage, as the region finds them. -/
abbrev feat1 (c : Dev nD) : S1024x512.Idx → EReal := V m c main_v47
abbrev feat2 (c : Dev nD) : S1024x512.Idx → EReal := V m c main_v48
abbrev tabIm (c : Dev nD) : S100352x512.Idx → EReal := V m c main_v49
abbrev tabRe (c : Dev nD) : S100352x512.Idx → EReal := V m c main_v50
abbrev offs (c : Dev nD) : S1x100352.Idx → EReal := V m c main_v51

set_option maxHeartbeats 40000000 in
/-- The first feature array is the reference's, of the same inputs. -/
theorem feat1_eq (c : Dev nD) :
    feat1 m c = Cert.ReferenceIdeal.Read.val_main_v39 (F := Ideal) (in0 m c) (in1 m c) (in2 m c) (in3 m c) (in4 m c) (in5 m c) := by
  show StableHlo.after (List.flatten [hostOps0, hostOps0_1, hostOps0_2, hostOps0_3, hostOps0_4, hostOps0_5, hostOps0_6, hostOps0_7, hostOps0_8, hostOps0_9, hostOps0_10, hostOps0_11]) (fun b => m (c, b)) (Proc.devRef .tc main_v47) = _
  simp only [hostOps0, hostOps0_1, hostOps0_2, hostOps0_3, hostOps0_4, hostOps0_5, hostOps0_6, hostOps0_7, hostOps0_8, hostOps0_9,
    hostOps0_10, hostOps0_11, List.flatten_cons, List.flatten_nil, List.append_nil, List.cons_append, List.nil_append]
  after_results_simp
  rfl

set_option maxHeartbeats 40000000 in
/-- The second feature array is the reference's, of the same inputs. -/
theorem feat2_eq (c : Dev nD) :
    feat2 m c = Cert.ReferenceIdeal.Read.val_main_v46 (F := Ideal) (in0 m c) (in1 m c) (in2 m c) (in3 m c) (in4 m c) (in5 m c) := by
  show StableHlo.after (List.flatten [hostOps0, hostOps0_1, hostOps0_2, hostOps0_3, hostOps0_4, hostOps0_5, hostOps0_6, hostOps0_7, hostOps0_8, hostOps0_9, hostOps0_10, hostOps0_11]) (fun b => m (c, b)) (Proc.devRef .tc main_v48) = _
  simp only [hostOps0, hostOps0_1, hostOps0_2, hostOps0_3, hostOps0_4, hostOps0_5, hostOps0_6, hostOps0_7, hostOps0_8, hostOps0_9,
    hostOps0_10, hostOps0_11, List.flatten_cons, List.flatten_nil, List.append_nil, List.cons_append, List.nil_append]
  after_results_simp
  rfl

set_option maxHeartbeats 8000000 in
/-- The extended imaginary table is the input padded. -/
theorem tabIm_eq (c : Dev nD) :
    tabIm m c = pad S100352x512 ![0, 0] ![352, 0] ![0, 0] (in2 m c) (sitofp (F := Ideal) .f32 (constantI S_ 32 0#32))
      Facts₀.pads_S100000x512_S100352x512_03520_000 Facts₀.h_S_ := by
  show StableHlo.after (List.flatten [hostOps0, hostOps0_1, hostOps0_2, hostOps0_3, hostOps0_4, hostOps0_5, hostOps0_6, hostOps0_7, hostOps0_8, hostOps0_9, hostOps0_10, hostOps0_11]) (fun b => m (c, b)) (Proc.devRef .tc main_v49) = _
  simp only [hostOps0, hostOps0_1, hostOps0_2, hostOps0_3, hostOps0_4, hostOps0_5, hostOps0_6, hostOps0_7, hostOps0_8, hostOps0_9,
    hostOps0_10, hostOps0_11, List.flatten_cons, List.flatten_nil, List.append_nil, List.cons_append, List.nil_append]
  after_results
  rfl

set_option maxHeartbeats 8000000 in
/-- The extended real table is the input padded. -/
theorem tabRe_eq (c : Dev nD) :
    tabRe m c = pad S100352x512 ![0, 0] ![352, 0] ![0, 0] (in3 m c) (sitofp (F := Ideal) .f32 (constantI S_ 32 0#32))
      Facts₀.pads_S100000x512_S100352x512_03520_000 Facts₀.h_S_ := by
  show StableHlo.after (List.flatten [hostOps0, hostOps0_1, hostOps0_2, hostOps0_3, hostOps0_4, hostOps0_5, hostOps0_6, hostOps0_7, hostOps0_8, hostOps0_9, hostOps0_10, hostOps0_11]) (fun b => m (c, b)) (Proc.devRef .tc main_v50) = _
  simp only [hostOps0, hostOps0_1, hostOps0_2, hostOps0_3, hostOps0_4, hostOps0_5, hostOps0_6, hostOps0_7, hostOps0_8, hostOps0_9,
    hostOps0_10, hostOps0_11, List.flatten_cons, List.flatten_nil, List.append_nil, List.cons_append, List.nil_append]
  after_results
  rfl

set_option maxHeartbeats 8000000 in
/-- The extended offsets row is the input padded. -/
theorem offs_eq (c : Dev nD) :
    offs m c = pad S1x100352 ![0, 0] ![0, 352] ![0, 0] (in6 m c) (sitofp (F := Ideal) .f32 (constantI S_ 32 0#32))
      Facts₀.pads_S1x100000_S1x100352_000_03520 Facts₀.h_S_ := by
  show StableHlo.after (List.flatten [hostOps0, hostOps0_1, hostOps0_2, hostOps0_3, hostOps0_4, hostOps0_5, hostOps0_6, hostOps0_7, hostOps0_8, hostOps0_9, hostOps0_10, hostOps0_11]) (fun b => m (c, b)) (Proc.devRef .tc main_v51) = _
  simp only [hostOps0, hostOps0_1, hostOps0_2, hostOps0_3, hostOps0_4, hostOps0_5, hostOps0_6, hostOps0_7, hostOps0_8, hostOps0_9,
    hostOps0_10, hostOps0_11, List.flatten_cons, List.flatten_nil, List.append_nil, List.cons_append, List.nil_append]
  after_results
  rfl

/-- Row `q` of the extended imaginary table, for an entity of the input, is the input's row. -/
theorem tabIm_apply (c : Dev nD) (q : Fin 100000) (q' : Fin 100352) (hq : q'.val = q.val) (k : Fin 512) :
    tabIm m c (ix2 q' k) = in2 m c (ix2 q k) := by
  rw [tabIm_eq]
  exact pad_apply_of_inside _ _ _ _ _ _ _ (ix2 q' k) (ix2 q k) fun a => by
    match a with
    | ⟨0, _⟩ => show q'.val = 0 + q.val * (0 + 1); omega
    | ⟨1, _⟩ => show k.val = 0 + k.val * (0 + 1); omega

/-- Row `q` of the extended real table, for an entity of the input, is the input's row. -/
theorem tabRe_apply (c : Dev nD) (q : Fin 100000) (q' : Fin 100352) (hq : q'.val = q.val) (k : Fin 512) :
    tabRe m c (ix2 q' k) = in3 m c (ix2 q k) := by
  rw [tabRe_eq]
  exact pad_apply_of_inside _ _ _ _ _ _ _ (ix2 q' k) (ix2 q k) fun a => by
    match a with
    | ⟨0, _⟩ => show q'.val = 0 + q.val * (0 + 1); omega
    | ⟨1, _⟩ => show k.val = 0 + k.val * (0 + 1); omega

/-- The extended offsets at an entity of the input are the input's. -/
theorem offs_apply (c : Dev nD) (q : Fin 100000) (q' : Fin 100352) (hq : q'.val = q.val) :
    offs m c (ix2 (0 : Fin 1) q') = in6 m c (ix2 (0 : Fin 1) q) := by
  rw [offs_eq]
  exact pad_apply_of_inside _ _ _ _ _ _ _ (ix2 (0 : Fin 1) q') (ix2 (0 : Fin 1) q) fun a => by
    match a with
    | ⟨0, _⟩ => show (0 : ℕ) = 0 + 0 * (0 + 1); omega
    | ⟨1, _⟩ => show q'.val = 0 + q.val * (0 + 1); omega

end Cert.KernelIdeal.HostArrays

end
-- ==== Proof.Blocks.lean ====
/-
  From the blocks the kernel writes back to the whole padded score array.

  The grid has 98 points. Point t stages the two query feature arrays whole, rows 1024·t … 1024·t + 1023 of the two
  extended entity tables and columns 1024·t … 1024·t + 1023 of the extended offsets, and writes back the block of
  columns 1024·t … 1024·t + 1023 of the 1024 × 100352 output. Entry (p, q) of that block is the score of query p against
  entity 1024·t + q over the extended tables (the body's stored value, Payload), so each block written back is the
  block of ONE array, the scores over the extended tables; the 98 blocks tile the output, so that array is what the
  output holds after the region.
-/
import proofs.«154426_j72576357368236_1_alg».proof.Proof.Gen.KernelIdeal.Frame
import proofs.«154426_j72576357368236_1_alg».proof.Proof.Payload
import proofs.«154426_j72576357368236_1_alg».proof.Proof.HostArrays
import proofs.«154426_j72576357368236_1_alg».proof.Proof.Spec
import Idealize.ShloMosaic.Lib.Pipeline.Value

set_option maxRecDepth 16384

noncomputable section

namespace Cert.KernelIdeal.Blocks

open Cert.KernelIdeal Cert.KernelIdeal.Gen Cert.KernelIdeal.HostArrays
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ)

theorem hz : (![0, 0] : Fin 2 → Nat) = fun _ => 0 := funext fun a => by fin_cases a <;> rfl

/-- The scores over the extended tables: what the output array holds after the region. -/
abbrev padded (c : Dev nD) : S1024x100352.Idx → EReal :=
  Cert.Score.score (feat1 m c) (feat2 m c) (tabIm m c) (tabRe m c) (offs m c)

/-- The printed index maps, decided over the 98 points: the query arrays are staged whole, the tables by row block,
    the offsets and the output by column block. -/
theorem idx_facts : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = 0 ∧ win0_4.index t (1 : Fin 2) = t.val
    ∧ win0_5.index t (0 : Fin 2) = 0 ∧ win0_5.index t (1 : Fin 2) = t.val :=
  (by decide +kernel : ∀ t : Fin grid0.N, _)

theorem point_lt (t : Fin cfg0.N) : t.val < 98 := by
  have h : cfg0.N = 98 := N_0
  have := t.isLt
  omega

/-- The blocks a point stages, at their literal types. -/
abbrev q1blk (c : Dev nD) (t : Fin cfg0.N) : Vec Ideal S1024x512 .bf16 := iblk m c 0 t
abbrev q2blk (c : Dev nD) (t : Fin cfg0.N) : Vec Ideal S1024x512 .bf16 := iblk m c 1 t
abbrev imblk (c : Dev nD) (t : Fin cfg0.N) : Vec Ideal S1024x512 .f32 := iblk m c 2 t
abbrev reblk (c : Dev nD) (t : Fin cfg0.N) : Vec Ideal S1024x512 .f32 := iblk m c 3 t
abbrev offblk (c : Dev nD) (t : Fin cfg0.N) : Vec Ideal S1x1024 .f32 := iblk m c 4 t

/-- The first query block is the first feature array. -/
theorem q1blk_apply (c : Dev nD) (t : Fin cfg0.N) (p : Fin 1024) (k : Fin 512) :
    q1blk m c t (ix2 p k) = feat1 m c (ix2 p k) := by
  obtain ⟨e00, e01, -⟩ := idx_facts t
  show V m c main_v47 (((cfg0.win 0).blk t).view.emb (ix2 p k : S1024x512.Idx)) = V m c main_v47 (ix2 p k)
  refine congrArg _ (funext fun a => Fin.ext ?_)
  match a with
  | ⟨0, _⟩ => show win0_0.index t (0 : Fin 2) * 1024 + 1 * p.val = p.val; omega
  | ⟨1, _⟩ => show win0_0.index t (1 : Fin 2) * 512 + 1 * k.val = k.val; omega

/-- The second query block is the second feature array. -/
theorem q2blk_apply (c : Dev nD) (t : Fin cfg0.N) (p : Fin 1024) (k : Fin 512) :
    q2blk m c t (ix2 p k) = feat2 m c (ix2 p k) := by
  obtain ⟨-, -, e10, e11, -⟩ := idx_facts t
  show V m c main_v48 (((cfg0.win 1).blk t).view.emb (ix2 p k : S1024x512.Idx)) = V m c main_v48 (ix2 p k)
  refine congrArg _ (funext fun a => Fin.ext ?_)
  match a with
  | ⟨0, _⟩ => show win0_1.index t (0 : Fin 2) * 1024 + 1 * p.val = p.val; omega
  | ⟨1, _⟩ => show win0_1.index t (1 : Fin 2) * 512 + 1 * k.val = k.val; omega

/-- Row `q` of point `t`'s imaginary block is row 1024·t + q of the extended table. -/
theorem imblk_apply (c : Dev nD) (t : Fin cfg0.N) (q : Fin 1024) (q' : Fin 100352) (hq : q'.val = t.val * 1024 + q.val) (k : Fin 512) :
    imblk m c t (ix2 q k) = tabIm m c (ix2 q' k) := by
  obtain ⟨-, -, -, -, e20, e21, -⟩ := idx_facts t
  show V m c main_v49 (((cfg0.win 2).blk t).view.emb (ix2 q k : S1024x512.Idx)) = V m c main_v49 (ix2 q' k)
  refine congrArg _ (funext fun a => Fin.ext ?_)
  match a with
  | ⟨0, _⟩ => show win0_2.index t (0 : Fin 2) * 1024 + 1 * q.val = q'.val; omega
  | ⟨1, _⟩ => show win0_2.index t (1 : Fin 2) * 512 + 1 * k.val = k.val; omega

/-- Row `q` of point `t`'s real block is row 1024·t + q of the extended table. -/
theorem reblk_apply (c : Dev nD) (t : Fin cfg0.N) (q : Fin 1024) (q' : Fin 100352) (hq : q'.val = t.val * 1024 + q.val) (k : Fin 512) :
    reblk m c t (ix2 q k) = tabRe m c (ix2 q' k) := by
  obtain ⟨-, -, -, -, -, -, e30, e31, -⟩ := idx_facts t
  show V m c main_v50 (((cfg0.win 3).blk t).view.emb (ix2 q k : S1024x512.Idx)) = V m c main_v50 (ix2 q' k)
  refine congrArg _ (funext fun a => Fin.ext ?_)
  match a with
  | ⟨0, _⟩ => show win0_3.index t (0 : Fin 2) * 1024 + 1 * q.val = q'.val; omega
  | ⟨1, _⟩ => show win0_3.index t (1 : Fin 2) * 512 + 1 * k.val = k.val; omega

/-- Column `q` of point `t`'s offsets block is column 1024·t + q of the extended offsets. -/
theorem offblk_apply (c : Dev nD) (t : Fin cfg0.N) (q : Fin 1024) (q' : Fin 100352) (hq : q'.val = t.val * 1024 + q.val) :
    offblk m c t (ix2 (0 : Fin 1) q) = offs m c (ix2 (0 : Fin 1) q') := by
  obtain ⟨-, -, -, -, -, -, -, -, e40, e41, -⟩ := idx_facts t
  show V m c main_v51 (((cfg0.win 4).blk t).view.emb (ix2 (0 : Fin 1) q : S1x1024.Idx)) = V m c main_v51 (ix2 (0 : Fin 1) q')
  refine congrArg _ (funext fun a => Fin.ext ?_)
  match a with
  | ⟨0, _⟩ => show win0_4.index t (0 : Fin 2) * 1 + 1 * 0 = 0; omega
  | ⟨1, _⟩ => show win0_4.index t (1 : Fin 2) * 1024 + 1 * q.val = q'.val; omega

/-- Entry (p, q) of point `t`'s output block lies at (p, 1024·t + q) of the output array. -/
theorem outblk_emb (t : Fin cfg0.N) (p q : Fin 1024) (q' : Fin 100352) (hq : q'.val = t.val * 1024 + q.val) :
    ((cfg0.win 5).blk t).view.emb (ix2 p q : S1024x1024.Idx) = (ix2 p q' : S1024x100352.Idx) := by
  obtain ⟨-, -, -, -, -, -, -, -, -, -, e50, e51⟩ := idx_facts t
  refine funext fun a => Fin.ext ?_
  match a with
  | ⟨0, _⟩ => show win0_5.index t (0 : Fin 2) * 1024 + 1 * p.val = p.val; omega
  | ⟨1, _⟩ => show win0_5.index t (1 : Fin 2) * 1024 + 1 * q.val = q'.val; omega

/-- What the body stores at point `t`, entry by entry, is the extended-table score at the entry's place in the array. -/
theorem stored_eq (c : Dev nD) (t : Fin cfg0.N) (y : S1024x1024.Idx) :
    k0_pay1 (F := Ideal) (q1blk m c t) (q2blk m c t) (imblk m c t) (reblk m c t) (offblk m c t) y
      = padded m c (((cfg0.win 5).blk t).view.emb y) := by
  obtain ⟨p, q, rfl⟩ : ∃ (p : Fin 1024) (q : Fin 1024), y = ix2 p q := ⟨y 0, y 1, eq_ix2 y⟩
  have ht := point_lt t
  have hq : t.val * 1024 + q.val < 100352 := by have := q.isLt; omega
  rw [outblk_emb t p q ⟨t.val * 1024 + q.val, hq⟩ rfl]
  show _ = Cert.Score.scoreAt (feat1 m c) (feat2 m c) (tabIm m c) (tabRe m c) (offs m c) p ⟨t.val * 1024 + q.val, hq⟩
  refine (Cert.KernelIdeal.Body.pay_apply (q1blk m c t) (q2blk m c t) (imblk m c t) (reblk m c t) (offblk m c t) p q).trans ?_
  unfold Cert.Score.scoreAt
  rw [offblk_apply m c t q ⟨t.val * 1024 + q.val, hq⟩ rfl]
  simp only [q1blk_apply m c t, q2blk_apply m c t, imblk_apply m c t q ⟨t.val * 1024 + q.val, hq⟩ rfl,
    reblk_apply m c t q ⟨t.val * 1024 + q.val, hq⟩ rfl]

/-- WHAT POINT `t` WRITES BACK is block `t` of the extended-table scores. -/
theorem flushed_eq (c : Dev nD) (t : Fin cfg0.N) :
    (dats m 0 c).flushed 5 t = ((cfg0.win 5).blk t).view.read (Elt Ideal) (padded m c) := by
  show (cfg0.win 5).cut (grid0.coords t) ((dats m 0 c).after 5 t) = _
  rw [after0_5]
  unfold out0_5
  rw [View.canon_unit_zero hz]
  simp only [View.ld_unit_zero (S := S1024x512) hz, View.ld_unit_zero (S := S1x1024) hz]
  funext j
  exact stored_eq m c t j

/-- An index of the output array is in point `t`'s block iff each coordinate is in the block's range on its axis. -/
theorem mem_blk (t : Fin cfg0.N) (i : S1024x100352.Idx) :
    i ∈ ((cfg0.win 5).blk t).view.set ↔ ∀ a : Fin 2, win0_5.index t a * S1024x1024.size a ≤ (i a).val ∧ (i a).val < win0_5.index t a * S1024x1024.size a + S1024x1024.size a := by
  show i ∈ ((View.whole main_v52).slice (win0_5.rect t)).set ↔ _
  rw [View.set_slice_whole, Rect.mem_set_unit]
  exact Iff.rfl

/-- The 98 column blocks tile the output: column j is in block j / 1024. -/
theorem cover (i : S1024x100352.Idx) : ∃ t : Fin cfg0.N, (cfg0.win 5).flush t = true ∧ i ∈ ((cfg0.win 5).blk t).view.set := by
  have hi0 : (i 0).val < 1024 := idx2_lt0 i
  have hi1 : (i 1).val < 100352 := idx2_lt1 i
  have hN : cfg0.N = 98 := N_0
  have hlt : (i 1).val / 1024 < cfg0.N := by rw [hN]; omega
  obtain ⟨-, -, -, -, -, -, -, -, -, -, e50, e51⟩ := idx_facts ⟨(i 1).val / 1024, hlt⟩
  refine ⟨⟨(i 1).val / 1024, hlt⟩, flush0_5 _, ?_⟩
  rw [mem_blk]
  intro a
  match a with
  | ⟨0, _⟩ =>
    show win0_5.index ⟨(i 1).val / 1024, hlt⟩ (0 : Fin 2) * 1024 ≤ (i 0).val ∧ (i 0).val < win0_5.index ⟨(i 1).val / 1024, hlt⟩ (0 : Fin 2) * 1024 + 1024
    omega
  | ⟨1, _⟩ =>
    show win0_5.index ⟨(i 1).val / 1024, hlt⟩ (1 : Fin 2) * 1024 ≤ (i 1).val ∧ (i 1).val < win0_5.index ⟨(i 1).val / 1024, hlt⟩ (1 : Fin 2) * 1024 + 1024
    have e : win0_5.index ⟨(i 1).val / 1024, hlt⟩ (1 : Fin 2) = (i 1).val / 1024 := e51
    omega

/-- THE OUTPUT ARRAY after the region: the scores over the extended tables. -/
theorem final (c : Dev nD) : (dats m 0 c).arrAt 5 cfg0.N = padded m c :=
  (dats m 0 c).arrAt_eq_of_cover 5 (padded m c) (fun t _ => flushed_eq m c t) (fun i => cover i)

end Cert.KernelIdeal.Blocks

end
-- ==== Proof.KernelRun.lean ====
/-
  The kernel's run, read: its result is the score over the inputs.

  After the region the output array holds the scores over the extended tables (Blocks); the one host line after the
  region keeps columns 0 … 99999. Those are entities of the input tables, where the extended tables and offsets ARE the
  inputs (HostArrays), so the result is the score of every query against every input entity — over the feature arrays
  the host built before the region, which are the reference's feature arrays of the same inputs.
-/
import proofs.«154426_j72576357368236_1_alg».proof.Proof.Gen.KernelIdeal.Frame
import proofs.«154426_j72576357368236_1_alg».proof.Proof.Gen.ReferenceIdeal.Read
import proofs.«154426_j72576357368236_1_alg».proof.Proof.Blocks
import proofs.«154426_j72576357368236_1_alg».proof.Proof.HostArrays
import proofs.«154426_j72576357368236_1_alg».proof.Proof.Spec
import Idealize.ShloMosaic.Lib.StableHlo.Run
import Idealize.ShloMosaic.Lib.Pipeline.Value

set_option maxRecDepth 16384

noncomputable section

namespace Cert.KernelIdeal.ScoreRun

open Cert.KernelIdeal Cert.KernelIdeal.Gen Cert.KernelIdeal.HostArrays
open Idealize.ShloMosaic Idealize.ShloMosaic.TcCoe Idealize.ShloMosaic.ValueIdx
open Idealize.SL.Sem Idealize.ShloMosaic.StableHlo

variable (m : (ℓ : Loc nD τ sig) → Buf (Elt Ideal) ℓ) (ρ : Dev nD → PrngReg)

/-- The scores of the 1024 queries against the 100000 input entities, over the reference's feature arrays of the inputs. -/
abbrev result (c : Dev nD) : S1024x100000.Idx → EReal :=
  Cert.Score.score
    (Cert.ReferenceIdeal.Read.val_main_v39 (F := Ideal) (in0 m c) (in1 m c) (in2 m c) (in3 m c) (in4 m c) (in5 m c))
    (Cert.ReferenceIdeal.Read.val_main_v46 (F := Ideal) (in0 m c) (in1 m c) (in2 m c) (in3 m c) (in4 m c) (in5 m c))
    (in2 m c) (in3 m c) (in6 m c)

/-- The host line after the region cuts the first 100000 columns out of the output array as the region left it. -/
theorem tail_eq (c : Dev nD) :
    (Pipeline.afterTail₀ cfgs (dats m) 0 (V0 m) [hostOps1] c main_v53 : S1024x100000.Idx → EReal)
      = extractStridedSlice S1024x100000 ![0, 0] ((dats m 0 c).arrAt 5 cfg0.N : S1024x100352.Idx → EReal)
          Facts₀.slices_S1024x100352_S1024x100000_0_0 := by
  unfold Pipeline.afterTail₀
  show StableHlo.after hostOps1 _ (Proc.devRef .tc main_v53) = _
  after_results
  rw [Pipeline.withArrays_arr spec0 launch0.win.arr_inj c _ _ 5]

/-- Column `q` of the first 100000 columns of a 100352-column array is its column `q`. -/
theorem kept_column (X : S1024x100352.Idx → EReal) (p : Fin 1024) (q : Fin 100000) (q' : Fin 100352) (hq : q'.val = q.val) :
    extractStridedSlice S1024x100000 ![0, 0] X Facts₀.slices_S1024x100352_S1024x100000_0_0 (ix2 p q) = X (ix2 p q') :=
  extractStridedSlice_apply ![0, 0] X Facts₀.slices_S1024x100352_S1024x100000_0_0 (ix2 p q) (ix2 p q') fun a => by
    match a with
    | ⟨0, _⟩ => show p.val = 0 + p.val; omega
    | ⟨1, _⟩ => show q'.val = 0 + q.val; omega

/-- The first 100000 columns of the extended-table scores are the scores over the inputs. -/
theorem slice_eq (c : Dev nD) :
    extractStridedSlice S1024x100000 ![0, 0] (Blocks.padded m c) Facts₀.slices_S1024x100352_S1024x100000_0_0 = result m c := by
  funext i
  obtain ⟨p, q, rfl⟩ : ∃ (p : Fin 1024) (q : Fin 100000), i = ix2 p q := ⟨i 0, i 1, eq_ix2 i⟩
  have hq : q.val < 100352 := by have := q.isLt; omega
  refine (kept_column (Blocks.padded m c) p q ⟨q.val, hq⟩ rfl).trans ?_
  show Cert.Score.scoreAt (feat1 m c) (feat2 m c) (tabIm m c) (tabRe m c) (offs m c) p ⟨q.val, hq⟩ = _
  refine (Cert.Score.scoreAt_of_rows (feat1 m c) (feat2 m c) (in2 m c) (in3 m c) (in6 m c) (tabIm m c) (tabRe m c) (offs m c)
    p q ⟨q.val, hq⟩ (fun k => tabIm_apply m c q ⟨q.val, hq⟩ rfl k) (fun k => tabRe_apply m c q ⟨q.val, hq⟩ rfl k)
    (offs_apply m c q ⟨q.val, hq⟩ rfl)).trans ?_
  exact congrArg₂ (fun a b => Cert.Score.scoreAt a b (in2 m c) (in3 m c) (in6 m c) p q) (feat1_eq m c) (feat2_eq m c)

/-- What the result buffer holds after the run. -/
theorem tail_result (c : Dev nD) :
    (Pipeline.afterTail₀ cfgs (dats m) 0 (V0 m) [hostOps1] c main_v53 : S1024x100000.Idx → EReal) = result m c := by
  rw [tail_eq, Blocks.final]
  exact slice_eq m c

/-- THE RUN: every weakly fair execution of the kernel's program ends with the result buffer at the score over the
    inputs and the seven inputs unchanged. -/
theorem run : θ_run defs (onTc (τ := τ) (main (F := Ideal))) ⟨m, fun _ => 0, ρ⟩ fun r => ∀ c : Dev nD,
      r.2.mem ((c.tc : Thread nD τ).loc main_v53) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
    ⟨((h c).2 main_v53 (Pipeline.mem_restRefs_of main_v53 (by decide) (by decide))).trans (tail_result m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩)
    (run_main m ρ)

end Cert.KernelIdeal.ScoreRun

end
-- ==== Proof.lean ====
/-
  The score kernel against its reference: the proof of `Cert.Claim`.

  Both programs score 1024 (head, relation) queries against 100000 entities of a complex-valued embedding table. From
  the index inputs h, r and the four tables they gather a head row and a relation row per query and combine them into
  two real feature arrays t1, t2 (1024 × 512), by the same operations in the same order. The reference then computes
  t1 · E_imᵀ + t2 · E_reᵀ + mask with two general dots over the 512 features. The kernel extends the entity tables and
  the mask to 100352 entities with the value the integer 0 converts to, computes the same expression 1024 entities at
  a time on the matrix unit (98 grid points, each writing one block of columns), and cuts the 352 extra columns off.

  At the ideal instance a change of float format is the identity and both matrix products are plain sums over the 512
  features, so entry (b, e) of either result is
      (∑ k, t1[b, k] · E_im[e, k]) + (∑ k, t2[b, k] · E_re[e, k]) + mask[0, e]
  with the same grouping on both sides: no sum is reordered and nothing is distributed, so the finiteness of the inputs
  is not used. The extra entities never enter a kept column.

  The modules: Spec (the score), RefValue (the reference's result is the score), Payload (the kernel body's stored
  value at an entry), HostArrays (the arrays the region finds, as functions of the inputs), Blocks (the output array
  after the region, from the blocks written back), KernelRun (the kernel's run, read), LibDenseNT (a matrix product whose
  right operand is contracted on its last axis, read at an entry).
-/
import proofs.«154426_j72576357368236_1_alg».proof.Defs
import proofs.«154426_j72576357368236_1_alg».proof.Proof.Gen.Kernel
import proofs.«154426_j72576357368236_1_alg».proof.Proof.Gen.Kernel.Skeleton
import proofs.«154426_j72576357368236_1_alg».proof.Proof.Gen.Kernel.Launch
import proofs.«154426_j72576357368236_1_alg».proof.Proof.Gen.Kernel.Points
import proofs.«154426_j72576357368236_1_alg».proof.Proof.Gen.Kernel.Frame
import proofs.«154426_j72576357368236_1_alg».proof.Proof.Gen.KernelIdeal
import proofs.«154426_j72576357368236_1_alg».proof.Proof.Gen.KernelIdeal.Skeleton
import proofs.«154426_j72576357368236_1_alg».proof.Proof.Gen.KernelIdeal.Launch
import proofs.«154426_j72576357368236_1_alg».proof.Proof.Gen.KernelIdeal.Points
import proofs.«154426_j72576357368236_1_alg».proof.Proof.Gen.KernelIdeal.Frame
import proofs.«154426_j72576357368236_1_alg».proof.Proof.Gen.ReferenceIdeal
import proofs.«154426_j72576357368236_1_alg».proof.Proof.Gen.Pre_finite_inputs
import proofs.«154426_j72576357368236_1_alg».proof.Proof.Gen.ReferenceIdeal.Run
import proofs.«154426_j72576357368236_1_alg».proof.Proof.Gen.ReferenceIdeal.Read
import proofs.«154426_j72576357368236_1_alg».proof.Proof.RefValue
import proofs.«154426_j72576357368236_1_alg».proof.Proof.KernelRun
import Idealize.ShloMosaic.Adequacy
import Idealize.ShloMosaic.Init

noncomputable section

namespace Cert.Proof

open Idealize.ShloMosaic Idealize.SL.Sem

/-- The word-level kernel runs and keeps its inputs: the generated frame. -/
theorem frame_k : Cert.frame_Kernel (hKernel := Cert.Kernel.Gen.facts) (hPre_finite_inputs := Cert.Pre_finite_inputs.Gen.facts) :=
  fun m ρ _ => Cert.Kernel.Gen.frame m ρ

/-- The idealized kernel runs and keeps its inputs: the generated frame. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference runs and keeps its inputs: its generated run, the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From inputs that agree, both programs end with the score of every query against every input entity: the kernel by
    its run read back (KernelRun), the reference by its generated run, whose last stage is the score (RefValue) over
    feature arrays that are functions of the inputs alone. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.ScoreRun.result m c, Cert.KernelIdeal.ScoreRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v53_eq, Cert.ReferenceIdeal.RefValue.result_eq_score,
    (hagree c).1, (hagree c).2.1, (hagree c).2.2.1, (hagree c).2.2.2.1, (hagree c).2.2.2.2.1, (hagree c).2.2.2.2.2.1,
    (hagree c).2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
